-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel

variable [Facts]

def fn {F : FTy → Type} [FloatOps F] (main_arg0 : FVec F S4096x8192 .f32) (main_arg1 : IVec S4096x8192 1) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  main_v3
-- ==== Kernel.lean ====
abbrev S4096x8192 : Shape := ⟨2, ![4096, 8192]⟩
abbrev S128x8192 : Shape := ⟨2, ![128, 8192]⟩

abbrev nBuf : Space → Nat
  | .hbm => 4
  | .vmem => 6
  | .smem => 0
  | _ => 0

abbrev bufTy : (tb : Table) → Fin (tcTables nBuf tb) → BufTy
  | .hbm, ⟨0, _⟩ => ⟨S4096x8192, .f32⟩
  | .hbm, ⟨1, _⟩ => ⟨S4096x8192, .i1⟩
  | .hbm, ⟨2, _⟩ => ⟨S4096x8192, .i32⟩
  | .hbm, ⟨3, _⟩ => ⟨S4096x8192, .f32⟩
  | .local _ .vmem, ⟨0, _⟩ => ⟨S128x8192, .f32⟩
  | .local _ .vmem, ⟨1, _⟩ => ⟨S128x8192, .f32⟩
  | .local _ .vmem, ⟨2, _⟩ => ⟨S128x8192, .i32⟩
  | .local _ .vmem, ⟨3, _⟩ => ⟨S128x8192, .i32⟩
  | .local _ .vmem, ⟨4, _⟩ => ⟨S128x8192, .f32⟩
  | .local _ .vmem, ⟨5, _⟩ => ⟨S128x8192, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  natLt_1_32 : 1 < 32
  inb_S128x8192_S128x8192_0_0 : ∀ a, (![0, 0] : Fin 2 → Nat) a + S128x8192.size a ≤ S128x8192.size a
  h_S128x8192 : 0 < S128x8192.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S4096x8192.size a
  hwx0_0 : ∀ i : grid0.Coords, EltTy.bits .f32 = 32 ∨ (Rect.block (s := S4096x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S4096x8192.size a
  hwx0_1 : ∀ i : grid0.Coords, EltTy.bits .i32 = 32 ∨ (Rect.block (s := S4096x8192) S128x8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x8192.size a ≤ S4096x8192.size a
  hwx0_2 : ∀ i : grid0.Coords, EltTy.bits .f32 = 32 ∨ (Rect.block (s := S4096x8192) S128x8192.size (cc0_transform_2 i) (hinb0_2 i)).WholeWords (EltTy.packing .f32)

variable [Facts₀]

abbrev win0_0 : Pipeline.Window sig grid0 :=
  Pipeline.Window.ofSpec (Memref.whole main_arg0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x8192 : Shape := ⟨2, ![4096, 8192]⟩
abbrev S_ : Shape := ⟨0, ![]⟩

abbrev nBuf : Space → Nat
  | .hbm => 5
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x8192, .i1⟩
  | .hbm, ⟨2, _⟩ => ⟨S_, .f32⟩
  | .hbm, ⟨3, _⟩ => ⟨S4096x8192, .f32⟩
  | .hbm, ⟨4, _⟩ => ⟨S4096x8192, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_v0 : Ref sig .tc := ⟨.hbm, 3, rfl⟩
abbrev main_v0 : Ref sig .tc := ⟨.hbm, 4, rfl⟩

abbrev nD : Nat := 1
abbrev τ : Topo := Topo.v7x

variable {F : FTy → Type} [FloatOps F]

class Facts₀ : Prop where
  bcast_S_S4096x8192 : S_.BroadcastsInDim S4096x8192 (![] : Fin 0 → Fin S4096x8192.rank)

variable [Facts₀]

class Facts : Prop extends Facts₀ where

variable [Facts]
-- ==== Proof.MaskedFill.lean ====
/-
  Word dropout as a masked fill, read one entry at a time.

  Both programs compute, for every position of a [4096, 8192] array,
      out = 3.0   where the flag is set,
      out = x     elsewhere,
  with the same single-precision word 0x40400000 for the fill value on both sides, so that word is
  never evaluated here.  The only difference between the two texts is how the flag is tested:
  the reference selects on the one-bit flag itself, the kernel first widens the flag to a 32-bit
  word (zero-extension, done before the call) and then asks whether that word differs from zero.
  A one-bit value widened with zeros is nonzero exactly when the bit is one, so the two tests
  agree on both values of the flag.  No arithmetic on the entries of `x` happens at all, hence no
  law of the extended reals is used and finiteness of `x` plays no part.
-/
import Idealize.ShloMosaic.PureOps
import Idealize.ShloMosaic.Lib.ValueIdx

noncomputable section

namespace Cert.MaskedFill

open Idealize.ShloMosaic

variable {F : FTy → Type} [FloatOps F]

/-- A one-bit flag, zero-extended to a word, differs from the zero word exactly when the flag is
    set: the comparison's answer is the flag again. -/
theorem widen_ne_zero (b : BitVec 1) : IntOp.cmpi .ne (b.setWidth 32) 0#32 = b := by
  revert b; decide

/-- The masked fill over any shape: the fill value where the flag is set, the entry of `x` where
    it is clear. -/
def fill {s : Shape} (x : s.Idx → F .f32) (flag : s.Idx → BitVec 1) : s.Idx → F .f32 :=
  fun i => Scalar.select (flag i) (FloatOps.ofBits .f32 0x40400000#32) (x i)

/-- The same fill, driven by a word per position: the fill value where the word is nonzero. -/
def fillByWord {s : Shape} (x : s.Idx → F .f32) (w : s.Idx → BitVec 32) : s.Idx → F .f32 :=
  fun i => Scalar.select (IntOp.cmpi .ne (w i) 0#32) (FloatOps.ofBits .f32 0x40400000#32) (x i)

/-- Driving the fill by the widened flags is driving it by the flags. -/
theorem fillByWord_widen {s : Shape} (x : s.Idx → F .f32) (flag : IVec s 1) (h : 1 < 32) :
    fillByWord x (extui 32 flag h) = fill x flag := by
  funext i
  unfold fillByWord fill
  rw [ValueIdx.extui_apply, widen_ne_zero]

/-- A vector-level select against a splatted scalar, with the condition "word ≠ 0", is the
    word-driven fill. -/
theorem select_ne_zero_eq {s : Shape} (x : FVec F s .f32) (w : IVec s 32) :
    select (cmpi .ne w (constantI s 32 0#32)) (broadcast s (Scalar.ofBits .f32 0x40400000#32 : F .f32)) x
      = fillByWord x w := rfl

end Cert.MaskedFill

end
-- ==== Proof.KernelFill.lean ====
/-
  What the kernel's result array holds after the run, as one function of the argument arrays.

  The call walks 32 grid points; point `t` works on rows 128·t … 128·t + 127 of all three arrays (the
  array `x`, the array of widened flags, and the result), each block spanning the full row length
  8192.  At a point the body stores, over the whole block, "fill value where the widened flag is
  nonzero, the entry of `x` elsewhere".  The three windows move together, so entry (r, q) of the
  block at point `t` reads `x` and the widened flag at the same array position (128·t + r, q) it
  writes: what a point writes back is the restriction to its block of ONE whole-array function.
  The 32 blocks tile the 4096 rows (row `r` lies in block `r / 128`), so the array ends holding that
  function everywhere.  Finally the array of widened flags is the zero-extension of the flag
  argument, computed before the call, and testing the widened flag against zero is testing the flag.
-/
import proofs.«145985_j53154515255825_1_alg».proof.Proof.Gen.KernelIdeal.Value
import proofs.«145985_j53154515255825_1_alg».proof.Proof.MaskedFill

noncomputable section

namespace Cert.KernelIdeal.FillValue

open Cert.KernelIdeal Cert.KernelIdeal.Gen Idealize.ShloMosaic Idealize.ShloMosaic.TcCoe Idealize.SL.Sem
open Idealize.ShloMosaic.Pipeline (Dat)
open Cert.MaskedFill

variable {F : FTy → Type} [FloatOps F]
variable (m : (ℓ : Loc nD τ sig) → Buf (Elt F) ℓ) (ρ : Dev nD → PrngReg)

theorem origin_zero : (![0, 0] : Fin 2 → Nat) = fun _ => 0 := funext fun a => by fin_cases a <;> rfl

/-- The body's stored value is the word-driven fill of its two loaded blocks. -/
theorem payload_eq (w : Vec F S128x8192 .i32) (x : Vec F S128x8192 .f32) :
    k0_pay1 w x = fillByWord (F := F) x w := rfl

/-- The three index maps agree at every grid point: block row `t`, block column 0. -/
theorem windows_move_together : ∀ t : Fin cfg0.N,
    win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) ≤ 31
    ∧ win0_2.index t (1 : Fin 2) = 0 :=
  (by decide +kernel : ∀ t : Fin grid0.N, _)

/-- Every block row 0 … 31 is some grid point's. -/
theorem every_block_row : ∀ q : Fin 32, ∃ t : Fin cfg0.N, win0_2.index t = ![q.val, 0] :=
  (by decide +kernel : ∀ q : Fin 32, ∃ t : Fin grid0.N, win0_2.index t = ![q.val, 0])

/-- What grid point `t` writes back is block `t` of the word-driven fill of the two arrays the
    region reads, as it finds them. -/
theorem flushed_eq (c : Dev nD) (t : Fin cfg0.N) :
    (dats m 0 c).flushed 2 t
      = ((cfg0.win 2).blk t).view.read (Elt F) (fillByWord (F := F) (V m c main_arg0) (V m c main_v0)) := by
  rw [Value.flushed2]
  unfold out0_2
  rw [View.canon_unit_zero origin_zero]
  simp only [View.ld_unit_zero (S := S128x8192) origin_zero]
  rw [payload_eq]
  obtain ⟨e0, e1, e2, e3, -, -⟩ := windows_move_together t
  funext j
  show Scalar.select (IntOp.cmpi .ne (V m c main_v0 (((cfg0.win 1).blk t).view.emb j)) 0#32) (FloatOps.ofBits .f32 0x40400000#32) (V m c main_arg0 (((cfg0.win 0).blk t).view.emb j))
     = Scalar.select (IntOp.cmpi .ne (V m c main_v0 (((cfg0.win 2).blk t).view.emb j)) 0#32) (FloatOps.ofBits .f32 0x40400000#32) (V m c main_arg0 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 128 + 1 * (j 0).val = win0_2.index t (0 : Fin 2) * 128 + 1 * (j 0).val; omega
    | ⟨1, _⟩ => show win0_0.index t (1 : Fin 2) * 8192 + 1 * (j 1).val = win0_2.index t (1 : Fin 2) * 8192 + 1 * (j 1).val; omega
  have h1 : ((cfg0.win 1).blk t).view.emb j = ((cfg0.win 2).blk t).view.emb j := by
    funext a; apply Fin.ext
    match a with
    | ⟨0, _⟩ => show win0_1.index t (0 : Fin 2) * 128 + 1 * (j 0).val = win0_2.index t (0 : Fin 2) * 128 + 1 * (j 0).val; omega
    | ⟨1, _⟩ => show win0_1.index t (1 : Fin 2) * 8192 + 1 * (j 1).val = win0_2.index t (1 : Fin 2) * 8192 + 1 * (j 1).val; omega
  rw [h0, h1]

/-- An array position lies in point `t`'s block iff, on each axis, its coordinate is in the block's range. -/
theorem mem_block (t : Fin cfg0.N) (i : S4096x8192.Idx) :
    i ∈ ((cfg0.win 2).blk t).view.set ↔ ∀ a : Fin 2, win0_2.index t a * S128x8192.size a ≤ (i a).val ∧ (i a).val < win0_2.index t a * S128x8192.size a + S128x8192.size a := by
  show i ∈ ((View.whole main_v1).slice (win0_2.rect t)).set ↔ _
  rw [View.set_slice_whole, Rect.mem_set_unit]
  exact Iff.rfl

/-- The blocks tile the array: row `r` is in the block of the point whose block row is `r / 128`. -/
theorem covered (i : S4096x8192.Idx) :
    ∃ t : Fin cfg0.N, (cfg0.win 2).flush t = true ∧ i ∈ ((cfg0.win 2).blk t).view.set := by
  have hi0 : (i 0).val < 4096 := (i 0).isLt
  have hi1 : (i 1).val < 8192 := (i 1).isLt
  obtain ⟨t, ht⟩ := every_block_row ⟨(i 0).val / 128, by omega⟩
  have q0 : win0_2.index t (0 : Fin 2) = (i 0).val / 128 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 8192 ≤ (i 1).val ∧ (i 1).val < win0_2.index t (1 : Fin 2) * 8192 + 8192; omega

/-- The array of widened flags the region finds: the zero-extension of the flag argument, written by
    the one operation that precedes the call. -/
theorem widened_flags (c : Dev nD) :
    (V m c main_v0 : S4096x8192.Idx → BitVec 32) = extui 32 (m ((c : Thread nD τ).loc main_arg1)) natLt_1_32 := by
  dsimp only [V, hostOps0]; after_results

/-- The result array after the run: the masked fill of the two argument arrays. -/
theorem final (c : Dev nD) :
    (dats m 0 c).arrAt 2 cfg0.N
      = fill (F := F) (m ((c : Thread nD τ).loc main_arg0)) (m ((c : Thread nD τ).loc main_arg1)) := by
  rw [(dats m 0 c).arrAt_eq_of_cover 2 (fillByWord (F := F) (V m c main_arg0) (V m c main_v0))
    (fun t _ => flushed_eq m c t) covered]
  rw [widened_flags, V_main_arg0]
  exact fillByWord_widen _ _ natLt_1_32

/-- Every weakly fair execution of the kernel program terminates with the result array at the masked
    fill of the arguments, and the arguments unchanged. -/
theorem run : θ_run defs (onTc (τ := τ) (main (F := F))) ⟨m, fun _ => 0, ρ⟩ fun r => ∀ c : Dev nD,
      r.2.mem ((c : Thread nD τ).loc main_v1) = fill (F := F) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.FillValue

end
-- ==== Proof.ReferenceFill.lean ====
/-
  What the reference computes, entry by entry.

  The reference is one select: where the flag is set it takes the entry of a scalar constant
  broadcast to the full shape, elsewhere the entry of `x`.  A scalar broadcast read at any position
  is the scalar, and the scalar is the fill value's word, so the result is the masked fill.
-/
import proofs.«145985_j53154515255825_1_alg».proof.Proof.Gen.ReferenceIdeal.Read
import proofs.«145985_j53154515255825_1_alg».proof.Proof.MaskedFill

noncomputable section

namespace Cert.ReferenceIdeal.FillValue

open Cert.ReferenceIdeal Cert.ReferenceIdeal.Gen Idealize.ShloMosaic Idealize.ShloMosaic.TcCoe Idealize.SL.Sem Idealize.ShloMosaic.StableHlo
open Cert.MaskedFill

variable {F : FTy → Type} [FloatOps F]

/-- The reference's result term is the masked fill of its two arguments. -/
theorem result_eq (x : (⟨S4096x8192, .f32⟩ : BufTy).Contents (Elt F)) (flag : (⟨S4096x8192, .i1⟩ : BufTy).Contents (Elt F)) :
    select flag (broadcastInDim S4096x8192 ![] bcast_S_S4096x8192 (constant S_ .f32 0x40400000#32)) x
      = fill (F := F) x flag := by
  rw [Read.val_main_v0_eq]
  funext i
  rw [Read.val_main_v0_apply, Read.val_main_call0_v0_apply, Read.val_main_cst_apply]
  rfl

end Cert.ReferenceIdeal.FillValue

end
-- ==== Proof.lean ====
/-
  Word dropout: `out = 3.0 where the flag is set, x elsewhere`, over a [4096, 8192] array of
  single-precision entries and an array of one-bit flags.

  The kernel walks the rows in 32 blocks of 128 full rows; before the call the flags are widened to
  32-bit words, and the body selects the fill value where the widened flag differs from zero.  The
  reference is a single select on the flags themselves, against the same constant word.  Read at one
  position both are the same choice between the same two values, because a zero-extended one-bit
  value is nonzero exactly when the bit is one; no arithmetic is done on the entries, so the equality
  holds over all extended reals and the finiteness precondition is never opened.

  Pieces: the entrywise specification and the flag lemma (Proof/MaskedFill.lean); the kernel's result
  array as that specification of its arguments, from what each grid point writes back and the fact
  that the blocks tile the array (Proof/KernelFill.lean); the reference's result term as the same
  specification (Proof/ReferenceFill.lean).  The kernel programs run and keep their arguments by
  their frames; the reference does so by its run with the result dropped; the idealized kernel is the
  kernel's own text read over the extended reals, so nothing is owed for that conjunct.
-/
import proofs.«145985_j53154515255825_1_alg».proof.Defs
import proofs.«145985_j53154515255825_1_alg».proof.Proof.Gen.Kernel
import proofs.«145985_j53154515255825_1_alg».proof.Proof.Gen.Kernel.Skeleton
import proofs.«145985_j53154515255825_1_alg».proof.Proof.Gen.Kernel.Launch
import proofs.«145985_j53154515255825_1_alg».proof.Proof.Gen.Kernel.Points
import proofs.«145985_j53154515255825_1_alg».proof.Proof.Gen.Kernel.Frame
import proofs.«145985_j53154515255825_1_alg».proof.Proof.Gen.KernelIdeal
import proofs.«145985_j53154515255825_1_alg».proof.Proof.Gen.KernelIdeal.Skeleton
import proofs.«145985_j53154515255825_1_alg».proof.Proof.Gen.KernelIdeal.Launch
import proofs.«145985_j53154515255825_1_alg».proof.Proof.Gen.KernelIdeal.Points
import proofs.«145985_j53154515255825_1_alg».proof.Proof.Gen.KernelIdeal.Frame
import proofs.«145985_j53154515255825_1_alg».proof.Proof.Gen.ReferenceIdeal
import proofs.«145985_j53154515255825_1_alg».proof.Proof.Gen.Pre_finite_inputs
import proofs.«145985_j53154515255825_1_alg».proof.Proof.Gen.KernelIdeal.Value
import proofs.«145985_j53154515255825_1_alg».proof.Proof.Gen.ReferenceIdeal.Run
import proofs.«145985_j53154515255825_1_alg».proof.Proof.Gen.ReferenceIdeal.Read
import proofs.«145985_j53154515255825_1_alg».proof.Proof.MaskedFill
import proofs.«145985_j53154515255825_1_alg».proof.Proof.KernelFill
import proofs.«145985_j53154515255825_1_alg».proof.Proof.ReferenceFill
import Idealize.ShloMosaic.Adequacy
import Idealize.ShloMosaic.Init

noncomputable section

namespace Cert.Proof

open Idealize.ShloMosaic Idealize.ShloMosaic.TcCoe Idealize.SL.Sem

/-- The word-level kernel terminates without a fault and leaves both arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference terminates and keeps its arguments: its run, with the statement about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals, from memories that agree on `x` and on the flags, both programs end with
    the masked fill of those two arrays in their result. -/
theorem algebraic : Cert.algebraic_KernelIdeal_ReferenceIdeal := by
  intro m ρ m' ρ' _ hagree
  refine ⟨_, Cert.KernelIdeal.FillValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.FillValue.result_eq _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
